-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x1x4096 : Shape := ⟨3, ![8, 1, 4096]⟩
abbrev S1x1024x3 : Shape := ⟨3, ![1, 1024, 3]⟩
abbrev S1x1x1024 : Shape := ⟨3, ![1, 1, 1024]⟩
abbrev S1024x3 : Shape := ⟨2, ![1024, 3]⟩
abbrev S1024 : Shape := ⟨1, ![1024]⟩
abbrev S1024x1 : Shape := ⟨2, ![1024, 1]⟩
abbrev S1x1024 : Shape := ⟨2, ![1, 1024]⟩
abbrev S3x1024 : Shape := ⟨2, ![3, 1024]⟩
abbrev S1024x1024 : Shape := ⟨2, ![1024, 1024]⟩
abbrev S8x4096 : Shape := ⟨2, ![8, 4096]⟩
abbrev S_ : Shape := ⟨0, ![]⟩

abbrev nBuf : Space → Nat
  | .hbm => 15
  | .vmem => 12
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x1x4096, .f32⟩
  | .hbm, ⟨3, _⟩ => ⟨S8x4096, .f32⟩
  | .hbm, ⟨4, _⟩ => ⟨S8x1x4096, .f32⟩
  | .hbm, ⟨5, _⟩ => ⟨S8x4096, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x1024x3, .f32⟩
  | .local _ .vmem, ⟨3, _⟩ => ⟨S1x1024x3, .f32⟩
  | .local _ .vmem, ⟨4, _⟩ => ⟨S1x1x1024, .f32⟩
  | .local _ .vmem, ⟨5, _⟩ => ⟨S1x1x1024, .f32⟩
  | .local _ .vmem, ⟨6, _⟩ => ⟨S1x1024x3, .f32⟩
  | .local _ .vmem, ⟨7, _⟩ => ⟨S1x1024x3, .f32⟩
  | .local _ .vmem, ⟨8, _⟩ => ⟨S1x1024x3, .f32⟩
  | .local _ .vmem, ⟨9, _⟩ => ⟨S1x1024x3, .f32⟩
  | .local _ .vmem, ⟨10, _⟩ => ⟨S1x1x1024, .f32⟩
  | .local _ .vmem, ⟨11, _⟩ => ⟨S1x1x1024, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 4, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage1_0 : Fin 2 → Memref sig .tc .vmem S1x1024x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  inb_S1x1x1024_S1x1x1024_0_0_0 : ∀ a, (![0, 0, 0] : Fin 3 → Nat) a + S1x1x1024.size a ≤ S1x1x1024.size a
  h_S1x1x1024 : 0 < S1x1x1024.numel
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  reduces_S1024x3_S1024 : S1024x3.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  transposes_S1024x3_p1_0_S3x1024 : S1024x3.Transposes [1, 0] S3x1024
  broadcasts_S1024x1_S1024x1024 : S1024x1.Broadcasts S1024x1024
  broadcasts_S1x1024_S1024x1024 : S1x1024.Broadcasts S1024x1024
  reduces_S1024x1024_S1024 : S1024x1024.Reduces [0] S1024
  shapeCasts_S1024_S1x1024 : S1024.ShapeCasts S1x1024
  shapeCasts_S1x1024_S1x1x1024 : S1x1024.ShapeCasts S1x1x1024
  shapeCasts_S1x1x1024_S1x1x1024 : S1x1x1024.ShapeCasts S1x1x1024
  shapeCasts_S8x1x4096_S8x4096 : S8x1x4096.ShapeCasts S8x4096
  reducesTo_S8x4096_S_d0_1 : S8x4096.ReducesTo [0, 1] S_
  h_S_ : 0 < S_.numel
  dot_S1024x3_S3x1024_S1024x1024_1_0_0_1_n_n_wf : DotDims.WF S1024x3 S3x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S8x4096x3.size a
  hwx0_0 : ∀ i : grid0.Coords, EltTy.bits .f32 = 32 ∨ (Rect.block (s := S8x4096x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S8x4096x3.size a
  hwx0_1 : ∀ i : grid0.Coords, EltTy.bits .f32 = 32 ∨ (Rect.block (s := S8x4096x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x4096.size a
  hwx0_2 : ∀ i : grid0.Coords, EltTy.bits .f32 = 32 ∨ (Rect.block (s := S8x1x4096) S1x1x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x3.size a ≤ S8x4096x3.size a
  hwx1_0 : ∀ i : grid1.Coords, EltTy.bits .f32 = 32 ∨ (Rect.block (s := S8x4096x3) S1x1024x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x3.size a ≤ S8x4096x3.size a
  hwx1_1 : ∀ i : grid1.Coords, EltTy.bits .f32 = 32 ∨ (Rect.block (s := S8x4096x3) S1x1024x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1024.size a ≤ S8x1x4096.size a
  hwx1_2 : ∀ i : grid1.Coords, EltTy.bits .f32 = 32 ∨ (Rect.block (s := S8x1x4096) S1x1x1024.size (cc1_transform_2 i) (hinb1_2 i)).WholeWords (EltTy.packing .f32)

variable [Facts₀]

def dot_S1024x3_S3x1024_S1024x1024_1_0_0_1_n_n : DotDims S1024x3 S3x1024 S1024x1024 where
  lhsContracting := [1]
  rhsContracting := [0]
  lhsNonContracting := [0]
  rhsNonContracting := [1]
  lhsBatch := []
  rhsBatch := []
  wf := dot_S1024x3_S3x1024_S1024x1024_1_0_0_1_n_n_wf

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1x1024x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1x1024x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 34
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096, .f32⟩
  | .hbm, ⟨23, _⟩ => ⟨S_, .f32⟩
  | .hbm, ⟨24, _⟩ => ⟨S8x4096, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_cst_8 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  reducesTo_S8x4096_S_d0_1 : S8x4096.ReducesTo [0, 1] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.KernelLoss.lean ====
/-
  The scalar the idealized kernel program returns, read off the run. After the two launches the host stretches reshape
  each launch's [8,1,4096] output array to [8,4096], sum each over all its entries from zero, divide each sum by
  32768, and add the two quotients (`meanSum`: the sum of the two means). The result buffer therefore ends holding
  `meanSum` of the two launches' output arrays reshaped: each host operation read back in program order, the first
  launch's array carried unchanged across the second launch, which does not write it.
-/
import proofs.«104544_j51754355916968_1_alg».proof.Proof.Gen.KernelIdeal.Frame
import Idealize.ShloMosaic.Lib.StableHlo.Run
import Idealize.ShloMosaic.Lib.Pipeline.Value

noncomputable section

open Idealize.ShloMosaic Idealize.ShloMosaic.TcCoe Idealize.SL.Sem

namespace Cert.KernelIdeal.Loss

open Cert.KernelIdeal Cert.KernelIdeal.Gen

variable {F : FTy → Type} [FloatOps F]
variable (m : (ℓ : Loc nD τ sig) → Buf (Elt F) ℓ) (ρ : Dev nD → PrngReg)

/-- The mean of `a` plus the mean of `b`, each over its 8·4096 entries, as the host computes them. -/
def meanSum (a b : FVec F S8x4096 .f32) : FVec F S_ .f32 :=
  addf (Host.divf (Host.reduceAdd a (constant S_ .f32 0x00000000#32) reducesTo_S8x4096_S_d0_1 h_S_) (constant S_ .f32 0x47000000#32))
    (Host.divf (Host.reduceAdd b (constant S_ .f32 0x00000000#32) reducesTo_S8x4096_S_d0_1 h_S_) (constant S_ .f32 0x47000000#32))

/-- The result buffer after the last host stretch: `meanSum` of the first and of the second launch's output arrays,
    each reshaped to [8,4096]. -/
theorem result_eq (c : Dev nD) : W4 m ρ c (Proc.devRef .tc main_v8)
    = meanSum (shapeCast S8x4096 ((dat0 (V0 m ρ) c).arrAt 2 cfg0.N) shapeCasts_S8x1x4096_S8x4096)
        (shapeCast S8x4096 ((dat1 (V2 m ρ) c).arrAt 2 cfg1.N) shapeCasts_S8x1x4096_S8x4096) := by
  have h1 : W3 m ρ c (Proc.devRef .tc main_v2) = (dat1 (V2 m ρ) c).arrAt 2 cfg1.N := W3_arr m ρ c 2
  have h0 : W1 m ρ c (Proc.devRef .tc main_v0) = (dat0 (V0 m ρ) c).arrAt 2 cfg0.N := W1_arr m ρ c 2
  have h2 : W3 m ρ c (Proc.devRef .tc main_v1)
      = shapeCast S8x4096 ((dat0 (V0 m ρ) c).arrAt 2 cfg0.N) shapeCasts_S8x1x4096_S8x4096 := by
    rw [W3_of_ne m ρ c main_v1 (fun w => by fin_cases w <;> decide)]
    show StableHlo.after hostOps1 (W1 m ρ c) (Proc.devRef .tc main_v1) = _
    after_results
    rw [h0]
    rfl
  show StableHlo.after hostOps2 (W3 m ρ c) (Proc.devRef .tc main_v8) = _
  after_results
  rw [h1, h2]
  rfl

/-- The second launch finds the two clouds as launched: the first launch and the reshape between write neither. -/
theorem V2_main_arg0 (c : Dev nD) : V2 m ρ c main_arg0 = m ((c : Thread nD τ).loc main_arg0) :=
  calc W2 m ρ c (Proc.devRef .tc main_arg0)
    _ = W1 m ρ c (Proc.devRef .tc main_arg0) := StableHlo.after_of_forall_not_mem (b := Proc.devRef .tc main_arg0) _ _ (List.forall_iff_forall_mem.mp (by
          simp only [hostOps1, List.Forall, StableHlo.reshape_writes, Finset.mem_singleton]
          exact StableHlo.devRef_ne_of_ne (by decide)))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem V2_main_arg1 (c : Dev nD) : V2 m ρ c main_arg1 = m ((c : Thread nD τ).loc main_arg1) :=
  calc W2 m ρ c (Proc.devRef .tc main_arg1)
    _ = W1 m ρ c (Proc.devRef .tc main_arg1) := StableHlo.after_of_forall_not_mem (b := Proc.devRef .tc main_arg1) _ _ (List.forall_iff_forall_mem.mp (by
          simp only [hostOps1, List.Forall, StableHlo.reshape_writes, Finset.mem_singleton]
          exact StableHlo.devRef_ne_of_ne (by decide)))
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl

end Cert.KernelIdeal.Loss

end
-- ==== Proof.PointStep.lean ====
/-
  What one grid point leaves in the output block of a launch. Each launch sweeps, for a fixed batch and a fixed tile of
  1024 row points, four tiles of 1024 column points; the output block holds one running minimum per row point. At
  the first column tile the block is reset to +∞ before the update, at the other three it is carried over from the
  point before. In both cases the block ends holding ONE pure function of the two input tiles and of the block the
  update starts from: the body's stored value, read through stores and loads that each cover the whole block.
  Stated for any float instance; the two launches run the same body, so the second launch's stored value is the
  first launch's term, and both are stated over it.
-/
import proofs.«104544_j51754355916968_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.PointStep

open Cert.KernelIdeal Cert.KernelIdeal.Gen

variable {F : FTy → Type} [FloatOps F]

/-- Every access of the body starts at the origin of its buffer. -/
theorem hz3 : (![0, 0, 0] : Fin 3 → Nat) = fun _ => 0 := funext fun a => by fin_cases a <;> rfl

/-- Launch 0, a point that carries the running minimum: the one store of the body writes the whole output block, and
    its value is the body's arithmetic of the two input tiles and of the block as the point before left it. -/
theorem carry0 (c : Dev nD) (i : grid0.Coords) (a3 : Memref sig .tc .vmem S1x1024x3 .f32) (h3 : a3.IsWhole)
    (a4 : Memref sig .tc .vmem S1x1024x3 .f32) (h4 : a4.IsWhole) (a5 : Memref sig .tc .vmem S1x1x1024 .f32) (h5 : a5.IsWhole)
    (hc : ¬cond0_0 i) (x0 x1 : Vec F S1x1024x3 .f32) (xo : Vec F S1x1x1024 .f32) :
    out0_B_2 c i a3 h3 a4 h4 a5 h5 hc x0 x1 xo = k0_pay2 x0 x1 xo := by
  unfold out0_B_2
  rw [View.read_writes_eq_canon _ _ _ (cover0_B_2 c i a3 h3 a4 h4 a5 h5 hc x0 x1 xo)]
  unfold kernelRun0_B
  dsimp only
  sl_unfold_words
  rw [View.canon_unit_zero hz3]
  simp only [View.readAt_eq_ld, h3.read_unread, h4.read_unread, h5.read_unread, View.ld_unit_zero (S := S1x1024x3) hz3,
    View.ld_unit_zero (S := S1x1x1024) hz3]

/-- Launch 0, a point that starts a new row tile: the block is first filled with +∞, read back, and overwritten
    by the same arithmetic with that +∞ block in the place of the carried one. -/
theorem reset0 (c : Dev nD) (i : grid0.Coords) (a3 : Memref sig .tc .vmem S1x1024x3 .f32) (h3 : a3.IsWhole)
    (a4 : Memref sig .tc .vmem S1x1024x3 .f32) (h4 : a4.IsWhole) (a5 : Memref sig .tc .vmem S1x1x1024 .f32) (h5 : a5.IsWhole)
    (hc : cond0_0 i) (x0 x1 : Vec F S1x1024x3 .f32) :
    out0_A_2 c i a3 h3 a4 h4 a5 h5 hc x0 x1 = k0_pay2 x0 x1 (k0_pay1 (F := F)) := by
  unfold out0_A_2
  rw [View.read_writes_eq_canon _ _ _ (cover0_A_2 c i a3 h3 a4 h4 a5 h5 hc x0 x1)]
  unfold kernelRun0_A
  dsimp only
  sl_unfold_words
  rw [View.canon_cons_unit_zero (S := S1x1x1024) hz3]
  simp only [View.readCov_unit_zero (S := S1x1x1024) _ hz3, View.readAt_eq_ld, h3.read_unread, h4.read_unread,
    View.ld_unit_zero (S := S1x1024x3) hz3]

/-- Launch 1, a point that carries the running minimum: the one store of the body writes the whole output block, and
    its value is the body's arithmetic of the two input tiles and of the block as the point before left it. -/
theorem carry1 (c : Dev nD) (i : grid1.Coords) (a3 : Memref sig .tc .vmem S1x1024x3 .f32) (h3 : a3.IsWhole)
    (a4 : Memref sig .tc .vmem S1x1024x3 .f32) (h4 : a4.IsWhole) (a5 : Memref sig .tc .vmem S1x1x1024 .f32) (h5 : a5.IsWhole)
    (hc : ¬cond1_0 i) (x0 x1 : Vec F S1x1024x3 .f32) (xo : Vec F S1x1x1024 .f32) :
    out1_B_2 c i a3 h3 a4 h4 a5 h5 hc x0 x1 xo = k0_pay2 x0 x1 xo := by
  show out1_B_2 c i a3 h3 a4 h4 a5 h5 hc x0 x1 xo = k1_pay2 x0 x1 xo
  unfold out1_B_2
  rw [View.read_writes_eq_canon _ _ _ (cover1_B_2 c i a3 h3 a4 h4 a5 h5 hc x0 x1 xo)]
  unfold kernelRun1_B
  dsimp only
  sl_unfold_words
  rw [View.canon_unit_zero hz3]
  simp only [View.readAt_eq_ld, h3.read_unread, h4.read_unread, h5.read_unread, View.ld_unit_zero (S := S1x1024x3) hz3,
    View.ld_unit_zero (S := S1x1x1024) hz3]

/-- Launch 1, a point that starts a new row tile: the block is first filled with +∞, read back, and overwritten
    by the same arithmetic with that +∞ block in the place of the carried one. -/
theorem reset1 (c : Dev nD) (i : grid1.Coords) (a3 : Memref sig .tc .vmem S1x1024x3 .f32) (h3 : a3.IsWhole)
    (a4 : Memref sig .tc .vmem S1x1024x3 .f32) (h4 : a4.IsWhole) (a5 : Memref sig .tc .vmem S1x1x1024 .f32) (h5 : a5.IsWhole)
    (hc : cond1_0 i) (x0 x1 : Vec F S1x1024x3 .f32) :
    out1_A_2 c i a3 h3 a4 h4 a5 h5 hc x0 x1 = k0_pay2 x0 x1 (k0_pay1 (F := F)) := by
  show out1_A_2 c i a3 h3 a4 h4 a5 h5 hc x0 x1 = k1_pay2 x0 x1 (k1_pay1 (F := F))
  unfold out1_A_2
  rw [View.read_writes_eq_canon _ _ _ (cover1_A_2 c i a3 h3 a4 h4 a5 h5 hc x0 x1)]
  unfold kernelRun1_A
  dsimp only
  sl_unfold_words
  rw [View.canon_cons_unit_zero (S := S1x1x1024) hz3]
  simp only [View.readCov_unit_zero (S := S1x1x1024) _ hz3, View.readAt_eq_ld, h3.read_unread, h4.read_unread,
    View.ld_unit_zero (S := S1x1024x3) hz3]

end Cert.KernelIdeal.PointStep

end
-- ==== Proof.Nearest.lean ====
/-
  Nearest-neighbour squared distances between two clouds of 4096 points in three dimensions, in each of eight
  batches, on the extended reals. For a point `p` of one cloud and a point `q` of the other the quantity compared
  is `(|q|² + |p|²) − 2·⟨q, p⟩` floored at zero (`gap`); `nearest p q b n` is its infimum over all points `q_k` of
  batch `b`, for the point `p_n`. A tiled evaluation takes the infimum 1024 points at a time, so the partial infimum
  over the first `K` points (`nearestUpTo`) is what is carried from tile to tile: it is `⊤` at `K = 0`, the minimum
  with the next tile's infimum at each step, and `nearest` at `K = 4096`. Infima are handled through their
  universal property: two extended reals with the same lower bounds are equal.
-/
import Idealize.ShloMosaic.PureOps.Ideal
import Idealize.ShloMosaic.PureOps.Ideal.Laws
import Idealize.ShloMosaic.Lib.ValueIdx

noncomputable section

namespace Cert.Nearest

open Idealize.ShloMosaic Idealize.ShloMosaic.ValueIdx

/-- A batch of clouds: 8 batches, 4096 points, 3 coordinates. -/
abbrev Cloud : Shape := ⟨3, ![8, 4096, 3]⟩
/-- One number per point. -/
abbrev PerPoint : Shape := ⟨2, ![8, 4096]⟩
/-- 1024 consecutive points of one batch. -/
abbrev Tile : Shape := ⟨3, ![1, 1024, 3]⟩
/-- One number per point of a tile. -/
abbrev Lane : Shape := ⟨3, ![1, 1, 1024]⟩

/-- The factor 2 of the cross term, as the f32 word both programs print. -/
def two : EReal := Ideal.ofBits .f32 0x40000000#32
/-- The floor 0 of the clamp, as the f32 word both programs print. -/
def floor0 : EReal := Ideal.ofBits .f32 0x00000000#32

/-- `(|q|² + |p|²) − 2·⟨q, p⟩`, floored at zero, of two points given by their coordinates. -/
def gap (q p : Fin 3 → EReal) : EReal :=
  max (((∑ d, q d * q d) + (∑ d, p d * p d)) - two * (∑ d, q d * p d)) floor0

/-- The same number with the two squared norms added in the other order and each product commuted. -/
theorem gap_comm (q p : Fin 3 → EReal) :
    max (((∑ d, p d * p d) + (∑ d, q d * q d)) - two * (∑ d, p d * q d)) floor0 = gap q p := by
  unfold gap
  rw [add_comm (∑ d, p d * p d)]
  simp only [mul_comm (p _) (q _)]

/-- Point `n` of batch `b` of a cloud, as its three coordinates. -/
def pt (p : Cloud.Idx → EReal) (b : Fin 8) (n : Fin 4096) : Fin 3 → EReal := fun d => p (ix3 b n d)
/-- Point `j` of a tile, as its three coordinates. -/
def tpt (x : Tile.Idx → EReal) (j : Fin 1024) : Fin 3 → EReal := fun d => x (ix3 (0 : Fin 1) j d)

/-- For point `n` of cloud `p` in batch `b`: the infimum of `gap` over the first `K` points of cloud `q`. -/
def nearestUpTo (p q : Cloud.Idx → EReal) (b : Fin 8) (n : Fin 4096) (K : ℕ) : EReal :=
  ⨅ k : Fin 4096, ⨅ _ : k.val < K, gap (pt q b k) (pt p b n)

/-- … and over all of them. -/
def nearest (p q : Cloud.Idx → EReal) (b : Fin 8) (n : Fin 4096) : EReal :=
  ⨅ k : Fin 4096, gap (pt q b k) (pt p b n)

/-- The nearest-neighbour distances as an array over (batch, point). -/
def nearestArr (p q : Cloud.Idx → EReal) : PerPoint.Idx → EReal :=
  fun j => nearest p q ⟨(j 0).val, (j 0).isLt⟩ ⟨(j 1).val, (j 1).isLt⟩

theorem nearestArr_ix2 (p q : Cloud.Idx → EReal) (b : Fin 8) (n : Fin 4096) :
    nearestArr p q (ix2 b n) = nearest p q b n := rfl

theorem le_nearestUpTo (p q : Cloud.Idx → EReal) (b : Fin 8) (n : Fin 4096) (K : ℕ) (z : EReal) :
    z ≤ nearestUpTo p q b n K ↔ ∀ k : Fin 4096, k.val < K → z ≤ gap (pt q b k) (pt p b n) := by
  unfold nearestUpTo; exact le_iInf₂_iff

theorem le_nearest (p q : Cloud.Idx → EReal) (b : Fin 8) (n : Fin 4096) (z : EReal) :
    z ≤ nearest p q b n ↔ ∀ k : Fin 4096, z ≤ gap (pt q b k) (pt p b n) := by
  unfold nearest; exact le_iInf_iff

/-- All 4096 points taken: the partial infimum is the infimum. -/
theorem nearestUpTo_all (p q : Cloud.Idx → EReal) (b : Fin 8) (n : Fin 4096) :
    nearestUpTo p q b n 4096 = nearest p q b n :=
  eq_of_forall_le_iff fun z => by
    rw [le_nearestUpTo, le_nearest]
    exact ⟨fun h k => h k k.isLt, fun h k _ => h k⟩

/-- The f32 word of +∞ is the top of the extended reals. -/
theorem ofBits_inf : Ideal.ofBits .f32 0x7F800000#32 = (⊤ : EReal) := by
  simp [Ideal.ofBits, Ideal.ieee]

/-- A fold of `min` from +∞ over all of a finite index type has exactly the common lower bounds of the terms. -/
theorem le_fold_min_top {ι : Type} [Fintype ι] (f : ι → EReal) (z : EReal) :
    z ≤ (Finset.univ : Finset ι).fold min (⊤ : EReal) f ↔ ∀ k, z ≤ f k := by
  rw [Finset.le_fold_min]
  exact ⟨fun h k => h.2 k (Finset.mem_univ k), fun h => ⟨le_top, fun k _ => h k⟩⟩

end Cert.Nearest

end
-- ==== Proof.TileNearest.lean ====
/-
  One grid point of the tiled evaluation, read at a lane. The kernel body holds a tile of 1024 row points and a tile
  of 1024 column points. Its first stored value is +∞ at every lane; its second is, at lane `j`, the minimum of the
  value carried in and of the infimum over the column points `c` of `gap (column point c) (row point j)`: the squared
  norms are plain three-term sums, the narrowing to bf16 is the identity on the extended reals, the matrix product
  into a zero accumulator is the three-term inner product, and the minimum over the column axis from +∞ has exactly
  the common lower bounds of its terms.
-/
import proofs.«104544_j51754355916968_1_alg».proof.Proof.Gen.KernelIdeal.Skeleton
import proofs.«104544_j51754355916968_1_alg».proof.Proof.Nearest
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws
import Idealize.ShloMosaic.PureOps.Reduce

noncomputable section

namespace Cert.TileNearest

open Cert.KernelIdeal Cert.KernelIdeal.Gen Cert.Nearest Idealize.ShloMosaic Idealize.ShloMosaic.ValueIdx

/-! ## Layout operations on a column -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The minimum over one axis -/

/-- A float minimum-reduction over one axis, on the extended reals: the fold of `min` from the accumulator's value
    over that axis's coordinates. -/
theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The first stored value is +∞ at every lane. -/
theorem pay1_top (j : Fin 1024) : k0_pay1 (F := Ideal) (ix3 (0 : Fin 1) (0 : Fin 1) j) = (⊤ : EReal) :=
  ofBits_inf

/-! ## The reductions of the body at a lane -/

/-- The minimum-reduction's source index over lane `j` with the column point `c` inserted is `(c, j)`. -/
theorem lift_col (h : S1024x1024.Reduces [0] S1024) (j : Fin 1024) (c : Fin 1024) :
    h.lift (ix1 j) c = ix2 c j :=
  funext fun a => Fin.ext (by match a with | ⟨0, _⟩ => rfl | ⟨1, _⟩ => rfl)

/-- The sum-reduction's source index over point `j` with the coordinate `d` inserted is `(j, d)`. -/
theorem lift_coord (h : S1024x3.Reduces [1] S1024) (j : Fin 1024) (d : Fin 3) :
    h.lift (ix1 j) d = ix2 j d :=
  funext fun a => Fin.ext (by match a with | ⟨0, _⟩ => rfl | ⟨1, _⟩ => rfl)

/-- The sum over the three coordinates of the squares, from the zero word: the squared norm of point `j`. -/
theorem sqnorm_apply (v : FVec Ideal S1024x3 .f32) (h : S1024x3.Reduces [1] S1024) (hφ : FKind.Formats .f32)
    (hacc : (0x00000000#32 : BitVec 32) = FKind.add.neutral .f32 hφ) (j : Fin 1024) :
    multiReduction .add [1] S1024 (mulf v v) 0x00000000#32 h hφ hacc (ix1 j)
      = ∑ d : Fin 3, v (ix2 j d) * v (ix2 j d) := by
  refine (Ideal.multiReduction_add_single (mulf v v) _ h hφ hacc (ix1 j)).trans ?_
  refine Finset.sum_congr rfl fun d _ => ?_
  rw [lift_coord h j d]
  rfl

/-- A fold of `min` from a value that is +∞ has exactly the common lower bounds of the terms. -/
theorem le_fold_min_of_top {ι : Type} [Fintype ι] (f : ι → EReal) (t z : EReal) (ht : t = ⊤) :
    z ≤ (Finset.univ : Finset ι).fold min t f ↔ ∀ k, z ≤ f k := by
  subst ht; exact le_fold_min_top f z

/-- The minimum over the column points, from the word of +∞, has exactly the common lower bounds of its terms. -/
theorem le_colmin (v : FVec Ideal S1024x1024 .f32) (h : S1024x1024.Reduces [0] S1024) (hφ : FKind.Formats .f32)
    (hacc : (0x7F800000#32 : BitVec 32) = FKind.minimumf.neutral .f32 hφ) (j : Fin 1024) (z : EReal) :
    z ≤ multiReduction .minimumf [0] S1024 v 0x7F800000#32 h hφ hacc (ix1 j) ↔ ∀ c : Fin 1024, z ≤ v (ix2 c j) := by
  rw [multiReduction_minimumf_single v _ h hφ hacc (ix1 j)]
  refine (le_fold_min_of_top (v ∘ h.lift (ix1 j)) _ z ofBits_inf).trans ?_
  exact ⟨fun H c => by have hc : z ≤ v (h.lift (ix1 j) c) := H c; rwa [lift_col h j c] at hc,
    fun H k => by show z ≤ v (h.lift (ix1 j) k); rw [lift_col h j k]; exact H k⟩

/-! ## The matrix product at an index -/

/-- The left operand's row is the output's row. -/
theorem dot_lhs_0 (i : S1024x1024.Idx) (q : dot_S1024x3_S3x1024_S1024x1024_1_0_0_1_n_n.contr.Idx) :
    (dot_S1024x3_S3x1024_S1024x1024_1_0_0_1_n_n.lhsIdx i q 0).val = (i 0).val := by
  unfold DotDims.lhsIdx
  rw [dif_neg (show ¬(0 : Fin S1024x3.rank) ∈ dot_S1024x3_S3x1024_S1024x1024_1_0_0_1_n_n.lhsBatch by decide),
    dif_pos (show (0 : Fin S1024x3.rank) ∈ dot_S1024x3_S3x1024_S1024x1024_1_0_0_1_n_n.lhsNonContracting by decide)]
  rfl

/-- The left operand's column is the contraction coordinate. -/
theorem dot_lhs_1 (i : S1024x1024.Idx) (q : dot_S1024x3_S3x1024_S1024x1024_1_0_0_1_n_n.contr.Idx) :
    (dot_S1024x3_S3x1024_S1024x1024_1_0_0_1_n_n.lhsIdx i q 1).val = (q ⟨0, by decide⟩).val :=
  dot_S1024x3_S3x1024_S1024x1024_1_0_0_1_n_n.lhsIdx_val_of_single rfl i q

/-- The right operand's row is the contraction coordinate. -/
theorem dot_rhs_0 (i : S1024x1024.Idx) (q : dot_S1024x3_S3x1024_S1024x1024_1_0_0_1_n_n.contr.Idx) :
    (dot_S1024x3_S3x1024_S1024x1024_1_0_0_1_n_n.rhsIdx i q 0).val = (q ⟨0, by decide⟩).val :=
  dot_S1024x3_S3x1024_S1024x1024_1_0_0_1_n_n.rhsIdx_val_of_single rfl i q

/-- The right operand's column is the output's column. -/
theorem dot_rhs_1 (i : S1024x1024.Idx) (q : dot_S1024x3_S3x1024_S1024x1024_1_0_0_1_n_n.contr.Idx) :
    (dot_S1024x3_S3x1024_S1024x1024_1_0_0_1_n_n.rhsIdx i q 1).val = (i 1).val := by
  unfold DotDims.rhsIdx
  rw [dif_neg (show ¬(1 : Fin S3x1024.rank) ∈ dot_S1024x3_S3x1024_S1024x1024_1_0_0_1_n_n.rhsBatch by decide),
    dif_pos (show (1 : Fin S3x1024.rank) ∈ dot_S1024x3_S3x1024_S1024x1024_1_0_0_1_n_n.rhsNonContracting by decide)]
  rfl

/-- The matrix product into the zero accumulator, at `(c, j)`: the three-term sum of row `c` of the left operand
    against column `j` of the right one. -/
theorem matmul_ix2_apply (A : FVec Ideal S1024x3 .bf16) (B : FVec Ideal S3x1024 .bf16) (c j : Fin 1024) :
    matmul dot_S1024x3_S3x1024_S1024x1024_1_0_0_1_n_n none A B (constant S1024x1024 .f32 0x00000000#32) (ix2 c j)
      = ∑ d : Fin 3, A (ix2 c d) * B (ix2 d j) := by
  simp only [matmul]
  rw [Ideal.matmul_constant_zero_apply,
    ← Equiv.sum_comp (contrEquiv1 dot_S1024x3_S3x1024_S1024x1024_1_0_0_1_n_n 3 rfl rfl).symm]
  refine Finset.sum_congr rfl fun k _ => ?_
  have hk := contrEquiv1_symm_val dot_S1024x3_S3x1024_S1024x1024_1_0_0_1_n_n 3 rfl rfl k
  have el : dot_S1024x3_S3x1024_S1024x1024_1_0_0_1_n_n.lhsIdx (ix2 c j)
      ((contrEquiv1 dot_S1024x3_S3x1024_S1024x1024_1_0_0_1_n_n 3 rfl rfl).symm k) = ix2 c k :=
    funext fun a => Fin.ext (by
      match a with
      | ⟨0, _⟩ => exact dot_lhs_0 _ _
      | ⟨1, _⟩ => exact (dot_lhs_1 _ _).trans hk)
  have er : dot_S1024x3_S3x1024_S1024x1024_1_0_0_1_n_n.rhsIdx (ix2 c j)
      ((contrEquiv1 dot_S1024x3_S3x1024_S1024x1024_1_0_0_1_n_n 3 rfl rfl).symm k) = ix2 k j :=
    funext fun a => Fin.ext (by
      match a with
      | ⟨0, _⟩ => exact (dot_rhs_0 _ _).trans hk
      | ⟨1, _⟩ => exact dot_rhs_1 _ _)
  rw [el, er]

/-! ## The body's stored value at a lane -/

/-- The body's stored value at lane `j` has exactly the lower bounds of the carried value that are lower bounds of
    every `gap (column point c) (row point j)`. -/
theorem le_pay2 (x0 x1 : Vec Ideal S1x1024x3 .f32) (prev : Vec Ideal S1x1x1024 .f32) (j : Fin 1024) (z : EReal) :
    z ≤ k0_pay2 (F := Ideal) x0 x1 prev (ix3 (0 : Fin 1) (0 : Fin 1) j)
      ↔ z ≤ prev (ix3 (0 : Fin 1) (0 : Fin 1) j) ∧ ∀ c : Fin 1024, z ≤ gap (tpt x1 c) (tpt x0 j) := by
  unfold k0_pay2
  rw [minimumf_apply, le_min_iff, shapeCast_self, shapeCast_ab_1ab_apply, shapeCast_a_1a_apply]
  refine and_congr Iff.rfl ((le_colmin _ _ _ _ j z).trans (forall_congr' fun c => ?_))
  refine Eq.to_iff (congrArg (z ≤ ·) ?_)
  rw [maximumf_apply, subf_apply, addf_apply, mulf_apply, broadcast_apply, broadcast_apply,
    broadcastTo_a1_ab_apply, shapeCast_a_a1_apply, broadcastTo_1b_ab_apply, transpose_ix2_apply, shapeCast_a_a1_apply,
    matmul_ix2_apply]
  unfold gap two floor0 tpt
  refine congrArg₂ max (congrArg₂ (· - ·) (congrArg₂ (· + ·) ?_ ?_) (congrArg₂ (· * ·) rfl ?_)) rfl
  · refine (sqnorm_apply _ _ _ _ c).trans (Finset.sum_congr rfl fun d _ => ?_)
    rw [shapeCast_1ab_ab_apply]
  · refine (sqnorm_apply _ _ _ _ j).trans (Finset.sum_congr rfl fun d _ => ?_)
    rw [shapeCast_1ab_ab_apply]
  · refine Finset.sum_congr rfl fun d _ => ?_
    rw [truncf_apply, transpose_ix2_apply, truncf_apply, shapeCast_1ab_ab_apply, shapeCast_1ab_ab_apply]

/-- The second launch stores the same first value … -/
theorem k1_pay1_eq : k1_pay1 (F := Ideal) = k0_pay1 (F := Ideal) := rfl

/-- … and the same second value. -/
theorem k1_pay2_eq : k1_pay2 (F := Ideal) = k0_pay2 (F := Ideal) := rfl

end Cert.TileNearest

end
-- ==== Proof.NearestSteps.lean ====
/-
  The partial infimum over the first `K` column points, tile by tile: over no points it is `⊤`, and taking 1024 more
  points is the minimum with their terms; stated through lower bounds.
-/
import proofs.«104544_j51754355916968_1_alg».proof.Proof.Nearest

noncomputable section

namespace Cert.Nearest

open Idealize.ShloMosaic Idealize.ShloMosaic.ValueIdx

/-- Over no points the infimum is the top. -/
theorem nearestUpTo_zero (p q : Cloud.Idx → EReal) (b : Fin 8) (n : Fin 4096) : nearestUpTo p q b n 0 = ⊤ :=
  eq_top_iff.mpr (by rw [le_nearestUpTo]; intro k hk; exact absurd hk (Nat.not_lt_zero _))

/-- The lower bounds of the infimum over the first `K + 1024` points are those of the infimum over the first `K`
    that are also below each term of the next tile. -/
theorem le_nearestUpTo_add_tile (p q : Cloud.Idx → EReal) (b : Fin 8) (n : Fin 4096) (K : ℕ) (hK : K + 1024 ≤ 4096)
    (z : EReal) :
    z ≤ nearestUpTo p q b n (K + 1024) ↔
      z ≤ nearestUpTo p q b n K ∧ ∀ c : Fin 1024, z ≤ gap (pt q b ⟨K + c.val, by have := c.isLt; omega⟩) (pt p b n) := by
  rw [le_nearestUpTo, le_nearestUpTo]
  constructor
  · intro h
    exact ⟨fun k hk => h k (by omega), fun c => h ⟨K + c.val, by have := c.isLt; omega⟩ (by have := c.isLt; show K + c.val < K + 1024; omega)⟩
  · rintro ⟨h1, h2⟩ k hk
    by_cases hlt : k.val < K
    · exact h1 k hlt
    · have e : (⟨K + (⟨k.val - K, by omega⟩ : Fin 1024).val, by have := k.isLt; show K + (k.val - K) < 4096; omega⟩ : Fin 4096) = k :=
        Fin.ext (by show K + (k.val - K) = k.val; omega)
      have := h2 ⟨k.val - K, by omega⟩
      rwa [e] at this

end Cert.Nearest

end
-- ==== Proof.TileStep.lean ====
/-
  One grid point advances the partial infimum by one tile of column points. If the row tile holds, at lane `j`, point
  `n` of the row cloud, the column tile holds points `K … K + 1023` of the column cloud, and the block carried in holds at
  lane `j` the infimum over the first `K` column points, then the stored value holds at lane `j` the infimum over the
  first `K + 1024`. At the first column tile the block carried in is all +∞, the infimum over no points.
-/
import proofs.«104544_j51754355916968_1_alg».proof.Proof.TileNearest
import proofs.«104544_j51754355916968_1_alg».proof.Proof.NearestSteps

noncomputable section

namespace Cert.TileNearest

open Cert.KernelIdeal Cert.KernelIdeal.Gen Cert.Nearest Idealize.ShloMosaic Idealize.ShloMosaic.ValueIdx

/-- A point that carries the running infimum in. -/
theorem tile_step (p q : Cloud.Idx → EReal) (b : Fin 8) (n : Fin 4096) (K : ℕ) (hK : K + 1024 ≤ 4096)
    (x0 x1 : Vec Ideal S1x1024x3 .f32) (prev : Vec Ideal S1x1x1024 .f32) (j : Fin 1024)
    (hrow : tpt x0 j = pt p b n)
    (hcol : ∀ c : Fin 1024, tpt x1 c = pt q b ⟨K + c.val, by have := c.isLt; omega⟩)
    (hprev : prev (ix3 (0 : Fin 1) (0 : Fin 1) j) = nearestUpTo p q b n K) :
    k0_pay2 (F := Ideal) x0 x1 prev (ix3 (0 : Fin 1) (0 : Fin 1) j) = nearestUpTo p q b n (K + 1024) :=
  eq_of_forall_le_iff fun z => by
    rw [le_pay2, le_nearestUpTo_add_tile p q b n K hK, hprev, hrow]
    simp only [hcol]

/-- A point that starts from +∞: the infimum over the first tile. -/
theorem tile_first (p q : Cloud.Idx → EReal) (b : Fin 8) (n : Fin 4096)
    (x0 x1 : Vec Ideal S1x1024x3 .f32) (j : Fin 1024)
    (hrow : tpt x0 j = pt p b n)
    (hcol : ∀ c : Fin 1024, tpt x1 c = pt q b ⟨0 + c.val, by have := c.isLt; omega⟩) :
    k0_pay2 (F := Ideal) x0 x1 (k0_pay1 (F := Ideal)) (ix3 (0 : Fin 1) (0 : Fin 1) j) = nearestUpTo p q b n (0 + 1024) :=
  tile_step p q b n 0 (by omega) x0 x1 _ j hrow hcol ((pay1_top j).trans (nearestUpTo_zero p q b n).symm)

/-- Two partial infima named through equal coordinates and equal counts are equal. -/
theorem nearestUpTo_congr (p q : Cloud.Idx → EReal) {b b' : Fin 8} {n n' : Fin 4096} {K K' : ℕ}
    (hb : b.val = b'.val) (hn : n.val = n'.val) (hK : K = K') :
    nearestUpTo p q b n K = nearestUpTo p q b' n' K' := by
  obtain rfl := Fin.ext hb; obtain rfl := Fin.ext hn; obtain rfl := hK; rfl

end Cert.TileNearest

end
-- ==== Proof.Lanes.lean ====
/-
  The layout a launch writes its result in. A launch's output array is [8,1,4096]: entry (b, 0, n) is the nearest
  distance for point `n` of batch `b` (`lanes`). Dropping the unit axis by a reshape gives the [8,4096] array of the
  same numbers: both index the same row-major position.
-/
import proofs.«104544_j51754355916968_1_alg».proof.Proof.Nearest
import Idealize.ShloMosaic.Lib.Pipeline.Value
import Idealize.ShloMosaic.Lib.ValueLayout

noncomputable section

namespace Cert.Nearest

open Idealize.ShloMosaic Idealize.ShloMosaic.ValueIdx

/-- A launch's output array: 8 batches, a unit axis, 4096 points. -/
abbrev Out : Shape := ⟨3, ![8, 1, 4096]⟩

/-- The nearest distances laid out over (batch, 0, point). -/
def lanes (p q : Cloud.Idx → EReal) : Out.Idx → EReal :=
  fun i => nearest p q ⟨(i 0).val, (i 0).isLt⟩ ⟨(i 2).val, (i 2).isLt⟩

/-- Reshaped to [8,4096] they are the array over (batch, point). -/
theorem shapeCast_lanes (p q : Cloud.Idx → EReal) (h : Out.ShapeCasts PerPoint) :
    shapeCast PerPoint (lanes p q) h = nearestArr p q := by
  funext i
  obtain ⟨b, n, rfl⟩ : ∃ (b : Fin 8) (n : Fin 4096), i = ix2 b n := ⟨i 0, i 1, eq_ix2 i⟩
  refine (shapeCast_apply (lanes p q) h (ix2 b n) (ix3 b (0 : Fin 1) n) ?_).trans rfl
  rw [Shape.rowMajor_val_three, Shape.rowMajor_val_two]
  show (b.val * 1 + 0) * 4096 + n.val = b.val * 4096 + n.val
  omega

end Cert.Nearest

end
-- ==== Proof.Sweep0.lean ====
/-
  Launch 0 of the kernel program: for every point of the predicted cloud its nearest squared distance to the target cloud.
  The grid runs over (batch, row tile, column tile), the column tile fastest: point `t` is batch `t / 16`, row tile
  `t / 4 % 4`, column tile `t % 4`. The row tile is rows `t / 4 % 4 · 1024 …` of the predicted cloud, the column tile rows
  `t % 4 · 1024 …` of the target cloud, and the output block, one number per row point, is carried across the four column
  tiles of a row tile. By induction on the point, after point `t` the block holds at lane `j` the infimum of `gap` over the
  first `(t % 4 + 1) · 1024` column points (`sweep`); it is written back after the fourth column tile, when that is the
  infimum over all 4096, to block (batch, 0, row tile) of the output array; those blocks tile the array, so the array
  ends holding the nearest distances (`final`). The clouds are the arrays as the launch finds them.
-/
import proofs.«104544_j51754355916968_1_alg».proof.Proof.PointStep
import proofs.«104544_j51754355916968_1_alg».proof.Proof.TileStep
import proofs.«104544_j51754355916968_1_alg».proof.Proof.Lanes
import Idealize.ShloMosaic.Lib.Pipeline.Value

noncomputable section

open Idealize.ShloMosaic Idealize.ShloMosaic.TcCoe Idealize.SL.Sem
open Idealize.ShloMosaic.Pipeline (Dat)

namespace Cert.KernelIdeal.Sweep0

open Cert.KernelIdeal Cert.KernelIdeal.Gen Cert.KernelIdeal.PointStep Cert.Nearest Cert.TileNearest
open Idealize.ShloMosaic.ValueIdx

variable (V : (c : Dev nD) → (b : Ref sig .tc) → Buf (Elt Ideal) ((c : Thread nD τ).loc b))

/-- The cloud whose points index the output (the launch's first operand) and the cloud minimised over (its second). -/
abbrev rows (c : Dev nD) : Cloud.Idx → EReal := V c main_arg0
abbrev cols (c : Dev nD) : Cloud.Idx → EReal := V c main_arg1
/-- The two input tiles of a grid point. -/
abbrev rowTile (c : Dev nD) (t : Fin cfg0.N) : Vec Ideal S1x1024x3 .f32 := iblk0 V c 0 t
abbrev colTile (c : Dev nD) (t : Fin cfg0.N) : Vec Ideal S1x1024x3 .f32 := iblk0 V c 1 t

/-- The block indices of the three windows at a grid point, decided over the grid. -/
theorem idx_facts : ∀ t : Fin cfg0.N,
    win0_0.index t (0 : Fin 3) = t.val / 16 ∧ win0_0.index t (1 : Fin 3) = t.val / 4 % 4 ∧ win0_0.index t (2 : Fin 3) = 0
    ∧ win0_1.index t (0 : Fin 3) = t.val / 16 ∧ win0_1.index t (1 : Fin 3) = t.val % 4 ∧ win0_1.index t (2 : Fin 3) = 0
    ∧ win0_2.index t (0 : Fin 3) = t.val / 16 ∧ win0_2.index t (1 : Fin 3) = 0 ∧ win0_2.index t (2 : Fin 3) = t.val / 4 % 4 :=
  (by decide +kernel : ∀ t : Fin grid0.N, _)

/-- Lane `j` of the row tile is point `t / 4 % 4 · 1024 + j` of batch `t / 16`. -/
theorem rowTile_pt (c : Dev nD) (t : Fin cfg0.N) (j : Fin 1024) (hb : t.val / 16 < 8) (hn : t.val / 4 % 4 * 1024 + j.val < 4096) :
    tpt (rowTile V c t) j = pt (rows V c) ⟨t.val / 16, hb⟩ ⟨t.val / 4 % 4 * 1024 + j.val, hn⟩ := by
  obtain ⟨e0, e1, e2, -⟩ := idx_facts t
  funext d
  show V c main_arg0 (((cfg0.win 0).blk t).view.emb (ix3 (0 : Fin 1) j d)) = V c main_arg0 (ix3 _ _ d)
  refine congrArg (V c main_arg0) (funext fun a => Fin.ext ?_)
  match a with
  | ⟨0, _⟩ => show win0_0.index t (0 : Fin 3) * 1 + 1 * 0 = t.val / 16; omega
  | ⟨1, _⟩ => show win0_0.index t (1 : Fin 3) * 1024 + 1 * j.val = t.val / 4 % 4 * 1024 + j.val; omega
  | ⟨2, _⟩ => show win0_0.index t (2 : Fin 3) * 3 + 1 * d.val = d.val; omega

/-- Lane `k` of the column tile is point `t % 4 · 1024 + k` of batch `t / 16`. -/
theorem colTile_pt (c : Dev nD) (t : Fin cfg0.N) (k : Fin 1024) (hb : t.val / 16 < 8) (hn : t.val % 4 * 1024 + k.val < 4096) :
    tpt (colTile V c t) k = pt (cols V c) ⟨t.val / 16, hb⟩ ⟨t.val % 4 * 1024 + k.val, hn⟩ := by
  obtain ⟨-, -, -, e0, e1, e2, -⟩ := idx_facts t
  funext d
  show V c main_arg1 (((cfg0.win 1).blk t).view.emb (ix3 (0 : Fin 1) k d)) = V c main_arg1 (ix3 _ _ d)
  refine congrArg (V c main_arg1) (funext fun a => Fin.ext ?_)
  match a with
  | ⟨0, _⟩ => show win0_1.index t (0 : Fin 3) * 1 + 1 * 0 = t.val / 16; omega
  | ⟨1, _⟩ => show win0_1.index t (1 : Fin 3) * 1024 + 1 * k.val = t.val % 4 * 1024 + k.val; omega
  | ⟨2, _⟩ => show win0_1.index t (2 : Fin 3) * 3 + 1 * d.val = d.val; omega

/-- THE SWEEP. After grid point `n` the output block holds, at lane `j`, the infimum over the first `(n % 4 + 1) · 1024`
    column points, for row point `n / 4 % 4 · 1024 + j` of batch `n / 16`: a point with `n % 4 = 0` starts from +∞ and takes
    the first tile, any other takes one more tile over what the point before left. -/
theorem sweep (c : Dev nD) : ∀ (n : ℕ) (h : n < cfg0.N) (j : Fin 1024) (hb : n / 16 < 8) (hn : n / 4 % 4 * 1024 + j.val < 4096),
    outsAt0 V c n h (ix3 (0 : Fin 1) (0 : Fin 1) j)
      = nearestUpTo (rows V c) (cols V c) ⟨n / 16, hb⟩ ⟨n / 4 % 4 * 1024 + j.val, hn⟩ (n % 4 * 1024 + 1024) := by
  intro n
  induction n using Nat.strong_induction_on with
  | _ n ih =>
    intro h j hb hn
    have hN : n < 128 := lt_of_lt_of_eq h (show cfg0.N = 128 from N_0)
    by_cases h0 : n % 4 = 0
    · have e : outsAt0 V c n h
          = k0_pay2 (F := Ideal) (rowTile V c ⟨n, h⟩) (colTile V c ⟨n, h⟩) (k0_pay1 (F := Ideal)) :=
        (outsAt0_A V c ⟨n, h⟩ h0).trans ((reset0 (F := Ideal) c (grid0.coords ⟨n, h⟩) (ms0_0 ⟨n, h⟩) (hs0_0 ⟨n, h⟩) (ms0_1 ⟨n, h⟩)
          (hs0_1 ⟨n, h⟩) (ms0_2 ⟨n, h⟩) (hs0_2 ⟨n, h⟩) ((hcond0_0 ⟨n, h⟩).mpr h0) (rowTile V c ⟨n, h⟩) (colTile V c ⟨n, h⟩)))
      rw [e]
      refine (tile_first (rows V c) (cols V c) ⟨n / 16, hb⟩ ⟨n / 4 % 4 * 1024 + j.val, hn⟩ (rowTile V c ⟨n, h⟩)
        (colTile V c ⟨n, h⟩) j (rowTile_pt V c ⟨n, h⟩ j hb hn) (fun k => ?_)).trans
        (nearestUpTo_congr _ _ rfl rfl (by omega))
      have hk : n % 4 * 1024 + k.val < 4096 := by have := k.isLt; omega
      refine (colTile_pt V c ⟨n, h⟩ k hb hk).trans ?_
      exact congrArg (pt (cols V c) ⟨n / 16, hb⟩) (Fin.ext (by show n % 4 * 1024 + k.val = 0 + k.val; omega))
    · have e : outsAt0 V c n h
          = k0_pay2 (F := Ideal) (rowTile V c ⟨n, h⟩) (colTile V c ⟨n, h⟩) (outsAt0 V c (n - 1) (Nat.lt_of_le_of_lt (Nat.sub_le _ _) h)) :=
        (outsAt0_B V c ⟨n, h⟩ h0).trans ((carry0 (F := Ideal) c (grid0.coords ⟨n, h⟩) (ms0_0 ⟨n, h⟩) (hs0_0 ⟨n, h⟩) (ms0_1 ⟨n, h⟩)
          (hs0_1 ⟨n, h⟩) (ms0_2 ⟨n, h⟩) (hs0_2 ⟨n, h⟩) (fun hh => h0 ((hcond0_0 ⟨n, h⟩).mp hh)) (rowTile V c ⟨n, h⟩) (colTile V c ⟨n, h⟩)
          (outsAt0 V c (n - 1) (Nat.lt_of_le_of_lt (Nat.sub_le _ _) h))))
      rw [e]
      refine tile_step (rows V c) (cols V c) ⟨n / 16, hb⟩ ⟨n / 4 % 4 * 1024 + j.val, hn⟩ (n % 4 * 1024) (by omega)
        (rowTile V c ⟨n, h⟩) (colTile V c ⟨n, h⟩) _ j (rowTile_pt V c ⟨n, h⟩ j hb hn)
        (fun k => colTile_pt V c ⟨n, h⟩ k hb (by have := k.isLt; omega)) ?_
      exact (ih (n - 1) (by omega) (Nat.lt_of_le_of_lt (Nat.sub_le _ _) h) j (by omega) (by omega)).trans
        (nearestUpTo_congr _ _ (by show (n - 1) / 16 = n / 16; omega)
          (by show (n - 1) / 4 % 4 * 1024 + j.val = n / 4 % 4 * 1024 + j.val; omega) (by omega))

/-- What a point of the fourth column tile writes back is its block of the nearest distances. -/
theorem flushed_eq (c : Dev nD) (t : Fin cfg0.N) (hf : (cfg0.win 2).flush t = true) :
    (dat0 V c).flushed 2 t = ((cfg0.win 2).blk t).view.read (Elt Ideal) (lanes (rows V c) (cols V c)) := by
  have h3 : t.val % 4 = 3 := (flush0_2 t).mp hf
  have hN : t.val < 128 := lt_of_lt_of_eq t.isLt (show cfg0.N = 128 from N_0)
  obtain ⟨-, -, -, -, -, -, e0, e1, e2⟩ := idx_facts t
  show (cfg0.win 2).cut (grid0.coords t) ((dat0 V c).after 2 t) = _
  rw [after0_2]
  funext y
  show outsAt0 V c t.val t.isLt y = lanes (rows V c) (cols V c) (((cfg0.win 2).blk t).view.emb y)
  have y0 : (y 0).val < 1 := (y 0).isLt
  have y1 : (y 1).val < 1 := (y 1).isLt
  have y2 : (y 2).val < 1024 := (y 2).isLt
  have hy : y = ix3 (0 : Fin 1) (0 : Fin 1) (⟨(y 2).val, y2⟩ : Fin 1024) := by
    funext a; apply Fin.ext
    match a with
    | ⟨0, _⟩ => show (y 0).val = 0; omega
    | ⟨1, _⟩ => show (y 1).val = 0; omega
    | ⟨2, _⟩ => rfl
  refine (congrArg (outsAt0 V c t.val t.isLt) hy).trans ?_
  refine (sweep V c t.val t.isLt ⟨(y 2).val, y2⟩ (by omega) (by show t.val / 4 % 4 * 1024 + (y 2).val < 4096; omega)).trans ?_
  show _ = nearest (rows V c) (cols V c) ⟨_, _⟩ ⟨_, _⟩
  rw [← nearestUpTo_all]
  exact nearestUpTo_congr _ _
    (by show t.val / 16 = win0_2.index t (0 : Fin 3) * 1 + 1 * (y 0).val; omega)
    (by show t.val / 4 % 4 * 1024 + (y 2).val = win0_2.index t (2 : Fin 3) * 1024 + 1 * (y 2).val; omega)
    (by omega)

/-- Every entry of the output array lies in the block of a point that writes back. -/
theorem cover (i : S8x1x4096.Idx) :
    ∃ t : Fin cfg0.N, (cfg0.win 2).flush t = true ∧ i ∈ ((cfg0.win 2).blk t).view.set := by
  have i0 : (i 0).val < 8 := (i 0).isLt
  have i1 : (i 1).val < 1 := (i 1).isLt
  have i2 : (i 2).val < 4096 := (i 2).isLt
  have hN : cfg0.N = 128 := N_0
  obtain ⟨t, ht⟩ : ∃ t : Fin cfg0.N, t.val = (i 0).val * 16 + (i 2).val / 1024 * 4 + 3 :=
    ⟨⟨(i 0).val * 16 + (i 2).val / 1024 * 4 + 3, by rw [hN]; omega⟩, rfl⟩
  obtain ⟨-, -, -, -, -, -, e0, e1, e2⟩ := idx_facts t
  refine ⟨t, (flush0_2 t).mpr (by omega), ?_⟩
  show i ∈ ((View.whole main_v0).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 1024 ≤ (i 2).val ∧ (i 2).val < win0_2.index t (2 : Fin 3) * 1024 + 1024; omega

/-- The launch's output array ends holding the nearest distances, laid out over (batch, 0, point). -/
theorem final (c : Dev nD) : (dat0 V c).arrAt 2 cfg0.N = lanes (rows V c) (cols V c) :=
  (dat0 V c).arrAt_eq_of_cover 2 (lanes (rows V c) (cols V c)) (flushed_eq V c) (fun i => cover i)

end Cert.KernelIdeal.Sweep0

end
-- ==== Proof.Sweep1.lean ====
/-
  Launch 1 of the kernel program: for every point of the target cloud its nearest squared distance to the predicted cloud.
  The grid runs over (batch, row tile, column tile), the column tile fastest: point `t` is batch `t / 16`, row tile
  `t / 4 % 4`, column tile `t % 4`. The row tile is rows `t / 4 % 4 · 1024 …` of the target cloud, the column tile rows
  `t % 4 · 1024 …` of the predicted cloud, and the output block, one number per row point, is carried across the four column
  tiles of a row tile. By induction on the point, after point `t` the block holds at lane `j` the infimum of `gap` over the
  first `(t % 4 + 1) · 1024` column points (`sweep`); it is written back after the fourth column tile, when that is the
  infimum over all 4096, to block (batch, 0, row tile) of the output array; those blocks tile the array, so the array
  ends holding the nearest distances (`final`). The clouds are the arrays as the launch finds them.
-/
import proofs.«104544_j51754355916968_1_alg».proof.Proof.PointStep
import proofs.«104544_j51754355916968_1_alg».proof.Proof.TileStep
import proofs.«104544_j51754355916968_1_alg».proof.Proof.Lanes
import Idealize.ShloMosaic.Lib.Pipeline.Value

noncomputable section

open Idealize.ShloMosaic Idealize.ShloMosaic.TcCoe Idealize.SL.Sem
open Idealize.ShloMosaic.Pipeline (Dat)

namespace Cert.KernelIdeal.Sweep1

open Cert.KernelIdeal Cert.KernelIdeal.Gen Cert.KernelIdeal.PointStep Cert.Nearest Cert.TileNearest
open Idealize.ShloMosaic.ValueIdx

variable (V : (c : Dev nD) → (b : Ref sig .tc) → Buf (Elt Ideal) ((c : Thread nD τ).loc b))

/-- The cloud whose points index the output (the launch's first operand) and the cloud minimised over (its second). -/
abbrev rows (c : Dev nD) : Cloud.Idx → EReal := V c main_arg1
abbrev cols (c : Dev nD) : Cloud.Idx → EReal := V c main_arg0
/-- The two input tiles of a grid point. -/
abbrev rowTile (c : Dev nD) (t : Fin cfg1.N) : Vec Ideal S1x1024x3 .f32 := iblk1 V c 0 t
abbrev colTile (c : Dev nD) (t : Fin cfg1.N) : Vec Ideal S1x1024x3 .f32 := iblk1 V c 1 t

/-- The block indices of the three windows at a grid point, decided over the grid. -/
theorem idx_facts : ∀ t : Fin cfg1.N,
    win1_0.index t (0 : Fin 3) = t.val / 16 ∧ win1_0.index t (1 : Fin 3) = t.val / 4 % 4 ∧ win1_0.index t (2 : Fin 3) = 0
    ∧ win1_1.index t (0 : Fin 3) = t.val / 16 ∧ win1_1.index t (1 : Fin 3) = t.val % 4 ∧ win1_1.index t (2 : Fin 3) = 0
    ∧ win1_2.index t (0 : Fin 3) = t.val / 16 ∧ win1_2.index t (1 : Fin 3) = 0 ∧ win1_2.index t (2 : Fin 3) = t.val / 4 % 4 :=
  (by decide +kernel : ∀ t : Fin grid1.N, _)

/-- Lane `j` of the row tile is point `t / 4 % 4 · 1024 + j` of batch `t / 16`. -/
theorem rowTile_pt (c : Dev nD) (t : Fin cfg1.N) (j : Fin 1024) (hb : t.val / 16 < 8) (hn : t.val / 4 % 4 * 1024 + j.val < 4096) :
    tpt (rowTile V c t) j = pt (rows V c) ⟨t.val / 16, hb⟩ ⟨t.val / 4 % 4 * 1024 + j.val, hn⟩ := by
  obtain ⟨e0, e1, e2, -⟩ := idx_facts t
  funext d
  show V c main_arg1 (((cfg1.win 0).blk t).view.emb (ix3 (0 : Fin 1) j d)) = V c main_arg1 (ix3 _ _ d)
  refine congrArg (V c main_arg1) (funext fun a => Fin.ext ?_)
  match a with
  | ⟨0, _⟩ => show win1_0.index t (0 : Fin 3) * 1 + 1 * 0 = t.val / 16; omega
  | ⟨1, _⟩ => show win1_0.index t (1 : Fin 3) * 1024 + 1 * j.val = t.val / 4 % 4 * 1024 + j.val; omega
  | ⟨2, _⟩ => show win1_0.index t (2 : Fin 3) * 3 + 1 * d.val = d.val; omega

/-- Lane `k` of the column tile is point `t % 4 · 1024 + k` of batch `t / 16`. -/
theorem colTile_pt (c : Dev nD) (t : Fin cfg1.N) (k : Fin 1024) (hb : t.val / 16 < 8) (hn : t.val % 4 * 1024 + k.val < 4096) :
    tpt (colTile V c t) k = pt (cols V c) ⟨t.val / 16, hb⟩ ⟨t.val % 4 * 1024 + k.val, hn⟩ := by
  obtain ⟨-, -, -, e0, e1, e2, -⟩ := idx_facts t
  funext d
  show V c main_arg0 (((cfg1.win 1).blk t).view.emb (ix3 (0 : Fin 1) k d)) = V c main_arg0 (ix3 _ _ d)
  refine congrArg (V c main_arg0) (funext fun a => Fin.ext ?_)
  match a with
  | ⟨0, _⟩ => show win1_1.index t (0 : Fin 3) * 1 + 1 * 0 = t.val / 16; omega
  | ⟨1, _⟩ => show win1_1.index t (1 : Fin 3) * 1024 + 1 * k.val = t.val % 4 * 1024 + k.val; omega
  | ⟨2, _⟩ => show win1_1.index t (2 : Fin 3) * 3 + 1 * d.val = d.val; omega

/-- THE SWEEP. After grid point `n` the output block holds, at lane `j`, the infimum over the first `(n % 4 + 1) · 1024`
    column points, for row point `n / 4 % 4 · 1024 + j` of batch `n / 16`: a point with `n % 4 = 0` starts from +∞ and takes
    the first tile, any other takes one more tile over what the point before left. -/
theorem sweep (c : Dev nD) : ∀ (n : ℕ) (h : n < cfg1.N) (j : Fin 1024) (hb : n / 16 < 8) (hn : n / 4 % 4 * 1024 + j.val < 4096),
    outsAt1 V c n h (ix3 (0 : Fin 1) (0 : Fin 1) j)
      = nearestUpTo (rows V c) (cols V c) ⟨n / 16, hb⟩ ⟨n / 4 % 4 * 1024 + j.val, hn⟩ (n % 4 * 1024 + 1024) := by
  intro n
  induction n using Nat.strong_induction_on with
  | _ n ih =>
    intro h j hb hn
    have hN : n < 128 := lt_of_lt_of_eq h (show cfg1.N = 128 from N_1)
    by_cases h0 : n % 4 = 0
    · have e : outsAt1 V c n h
          = k0_pay2 (F := Ideal) (rowTile V c ⟨n, h⟩) (colTile V c ⟨n, h⟩) (k0_pay1 (F := Ideal)) :=
        (outsAt1_A V c ⟨n, h⟩ h0).trans ((reset1 (F := Ideal) c (grid1.coords ⟨n, h⟩) (ms1_0 ⟨n, h⟩) (hs1_0 ⟨n, h⟩) (ms1_1 ⟨n, h⟩)
          (hs1_1 ⟨n, h⟩) (ms1_2 ⟨n, h⟩) (hs1_2 ⟨n, h⟩) ((hcond1_0 ⟨n, h⟩).mpr h0) (rowTile V c ⟨n, h⟩) (colTile V c ⟨n, h⟩)))
      rw [e]
      refine (tile_first (rows V c) (cols V c) ⟨n / 16, hb⟩ ⟨n / 4 % 4 * 1024 + j.val, hn⟩ (rowTile V c ⟨n, h⟩)
        (colTile V c ⟨n, h⟩) j (rowTile_pt V c ⟨n, h⟩ j hb hn) (fun k => ?_)).trans
        (nearestUpTo_congr _ _ rfl rfl (by omega))
      have hk : n % 4 * 1024 + k.val < 4096 := by have := k.isLt; omega
      refine (colTile_pt V c ⟨n, h⟩ k hb hk).trans ?_
      exact congrArg (pt (cols V c) ⟨n / 16, hb⟩) (Fin.ext (by show n % 4 * 1024 + k.val = 0 + k.val; omega))
    · have e : outsAt1 V c n h
          = k0_pay2 (F := Ideal) (rowTile V c ⟨n, h⟩) (colTile V c ⟨n, h⟩) (outsAt1 V c (n - 1) (Nat.lt_of_le_of_lt (Nat.sub_le _ _) h)) :=
        (outsAt1_B V c ⟨n, h⟩ h0).trans ((carry1 (F := Ideal) c (grid1.coords ⟨n, h⟩) (ms1_0 ⟨n, h⟩) (hs1_0 ⟨n, h⟩) (ms1_1 ⟨n, h⟩)
          (hs1_1 ⟨n, h⟩) (ms1_2 ⟨n, h⟩) (hs1_2 ⟨n, h⟩) (fun hh => h0 ((hcond1_0 ⟨n, h⟩).mp hh)) (rowTile V c ⟨n, h⟩) (colTile V c ⟨n, h⟩)
          (outsAt1 V c (n - 1) (Nat.lt_of_le_of_lt (Nat.sub_le _ _) h))))
      rw [e]
      refine tile_step (rows V c) (cols V c) ⟨n / 16, hb⟩ ⟨n / 4 % 4 * 1024 + j.val, hn⟩ (n % 4 * 1024) (by omega)
        (rowTile V c ⟨n, h⟩) (colTile V c ⟨n, h⟩) _ j (rowTile_pt V c ⟨n, h⟩ j hb hn)
        (fun k => colTile_pt V c ⟨n, h⟩ k hb (by have := k.isLt; omega)) ?_
      exact (ih (n - 1) (by omega) (Nat.lt_of_le_of_lt (Nat.sub_le _ _) h) j (by omega) (by omega)).trans
        (nearestUpTo_congr _ _ (by show (n - 1) / 16 = n / 16; omega)
          (by show (n - 1) / 4 % 4 * 1024 + j.val = n / 4 % 4 * 1024 + j.val; omega) (by omega))

/-- What a point of the fourth column tile writes back is its block of the nearest distances. -/
theorem flushed_eq (c : Dev nD) (t : Fin cfg1.N) (hf : (cfg1.win 2).flush t = true) :
    (dat1 V c).flushed 2 t = ((cfg1.win 2).blk t).view.read (Elt Ideal) (lanes (rows V c) (cols V c)) := by
  have h3 : t.val % 4 = 3 := (flush1_2 t).mp hf
  have hN : t.val < 128 := lt_of_lt_of_eq t.isLt (show cfg1.N = 128 from N_1)
  obtain ⟨-, -, -, -, -, -, e0, e1, e2⟩ := idx_facts t
  show (cfg1.win 2).cut (grid1.coords t) ((dat1 V c).after 2 t) = _
  rw [after1_2]
  funext y
  show outsAt1 V c t.val t.isLt y = lanes (rows V c) (cols V c) (((cfg1.win 2).blk t).view.emb y)
  have y0 : (y 0).val < 1 := (y 0).isLt
  have y1 : (y 1).val < 1 := (y 1).isLt
  have y2 : (y 2).val < 1024 := (y 2).isLt
  have hy : y = ix3 (0 : Fin 1) (0 : Fin 1) (⟨(y 2).val, y2⟩ : Fin 1024) := by
    funext a; apply Fin.ext
    match a with
    | ⟨0, _⟩ => show (y 0).val = 0; omega
    | ⟨1, _⟩ => show (y 1).val = 0; omega
    | ⟨2, _⟩ => rfl
  refine (congrArg (outsAt1 V c t.val t.isLt) hy).trans ?_
  refine (sweep V c t.val t.isLt ⟨(y 2).val, y2⟩ (by omega) (by show t.val / 4 % 4 * 1024 + (y 2).val < 4096; omega)).trans ?_
  show _ = nearest (rows V c) (cols V c) ⟨_, _⟩ ⟨_, _⟩
  rw [← nearestUpTo_all]
  exact nearestUpTo_congr _ _
    (by show t.val / 16 = win1_2.index t (0 : Fin 3) * 1 + 1 * (y 0).val; omega)
    (by show t.val / 4 % 4 * 1024 + (y 2).val = win1_2.index t (2 : Fin 3) * 1024 + 1 * (y 2).val; omega)
    (by omega)

/-- Every entry of the output array lies in the block of a point that writes back. -/
theorem cover (i : S8x1x4096.Idx) :
    ∃ t : Fin cfg1.N, (cfg1.win 2).flush t = true ∧ i ∈ ((cfg1.win 2).blk t).view.set := by
  have i0 : (i 0).val < 8 := (i 0).isLt
  have i1 : (i 1).val < 1 := (i 1).isLt
  have i2 : (i 2).val < 4096 := (i 2).isLt
  have hN : cfg1.N = 128 := N_1
  obtain ⟨t, ht⟩ : ∃ t : Fin cfg1.N, t.val = (i 0).val * 16 + (i 2).val / 1024 * 4 + 3 :=
    ⟨⟨(i 0).val * 16 + (i 2).val / 1024 * 4 + 3, by rw [hN]; omega⟩, rfl⟩
  obtain ⟨-, -, -, -, -, -, e0, e1, e2⟩ := idx_facts t
  refine ⟨t, (flush1_2 t).mpr (by omega), ?_⟩
  show i ∈ ((View.whole main_v2).slice (win1_2.rect t)).set
  rw [View.set_slice_whole, Rect.mem_set_unit]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 1 ≤ (i 1).val ∧ (i 1).val < win1_2.index t (1 : Fin 3) * 1 + 1; omega
  | ⟨2, _⟩ => show win1_2.index t (2 : Fin 3) * 1024 ≤ (i 2).val ∧ (i 2).val < win1_2.index t (2 : Fin 3) * 1024 + 1024; omega

/-- The launch's output array ends holding the nearest distances, laid out over (batch, 0, point). -/
theorem final (c : Dev nD) : (dat1 V c).arrAt 2 cfg1.N = lanes (rows V c) (cols V c) :=
  (dat1 V c).arrAt_eq_of_cover 2 (lanes (rows V c) (cols V c)) (flushed_eq V c) (fun i => cover i)

end Cert.KernelIdeal.Sweep1

end
-- ==== Proof.RefNearest.lean ====
/-
  The reference program's two minimum-reductions are the nearest-neighbour distances of the specification.
  The reference forms, for clouds x and y, the array v14[b,n,m] = max((|x_n|² + |y_m|²) − 2·⟨x_n, y_m⟩, 0) and takes
  its minimum from +∞ over m (for each point of x) and over n (for each point of y). Read at an index, v14 is the
  specification's `gap` term; a minimum from +∞ over all 4096 coordinates of an axis has exactly the common lower bounds of
  its terms, which is the universal property of the infimum the specification is stated with.
-/
import proofs.«104544_j51754355916968_1_alg».proof.Proof.Gen.ReferenceIdeal.Read
import proofs.«104544_j51754355916968_1_alg».proof.Proof.Nearest
import Idealize.ShloMosaic.PureOps.Ideal
import Idealize.ShloMosaic.PureOps.Ideal.Laws
import Idealize.ShloMosaic.PureOps.Reduce
import Idealize.ShloMosaic.Lib.ValueIdx

noncomputable section

namespace Cert.RefNearest

open Cert.ReferenceIdeal Cert.ReferenceIdeal.Gen Cert.ReferenceIdeal.Read Cert.Nearest Idealize.ShloMosaic Idealize.ShloMosaic.ValueIdx

/-- The squared-norm index chain of the first cloud at (b, n, m) is (b, n, k). -/
private theorem idx_x2 (b : Fin 8) (n m : Fin 4096) (k : Fin 3) :
    idx_main_v1 (idx_main_v5 (idx_main_v7 (ix3 b n m))) k = ix3 b n k := by
  funext a; match a with | ⟨0, _⟩ => rfl | ⟨1, _⟩ => rfl | ⟨2, _⟩ => rfl

/-- The squared-norm index chain of the second cloud at (b, n, m) is (b, m, k). -/
private theorem idx_y2 (b : Fin 8) (n m : Fin 4096) (k : Fin 3) :
    idx_main_v3 (idx_main_v6 (idx_main_v8 (ix3 b n m))) k = ix3 b m k := by
  funext a; match a with | ⟨0, _⟩ => rfl | ⟨1, _⟩ => rfl | ⟨2, _⟩ => rfl

private theorem lidx_xy (b : Fin 8) (n m : Fin 4096) (k : Fin 3) :
    lidx_main_v4 (ix3 b n m) k = ix3 b n k := by
  funext a; match a with | ⟨0, _⟩ => rfl | ⟨1, _⟩ => rfl | ⟨2, _⟩ => rfl

private theorem ridx_xy (b : Fin 8) (n m : Fin 4096) (k : Fin 3) :
    ridx_main_v4 (ix3 b n m) k = ix3 b m k := by
  funext a; match a with | ⟨0, _⟩ => rfl | ⟨1, _⟩ => rfl | ⟨2, _⟩ => rfl

/-- The clamped difference the reference minimises, at (b, n, m): the squared norms of x_n and y_m, their product. -/
theorem v14_ix3 (x y : (⟨S8x4096x3, .f32⟩ : BufTy).Contents (Elt Ideal)) (b : Fin 8) (n m : Fin 4096) :
    val_main_v14 (F := Ideal) x y (ix3 b n m)
      = max (((∑ d, pt x b n d * pt x b n d) + (∑ d, pt y b m d * pt y b m d))
          - two * (∑ d, pt x b n d * pt y b m d)) floor0 := by
  rw [val_main_v14_apply, val_main_v12_apply, val_main_v9_apply, val_main_v11_apply, val_main_v7_apply,
    val_main_v8_apply, val_main_v5_apply, val_main_v6_apply, val_main_v1_apply, val_main_v3_apply,
    val_main_v4_apply, val_main_v10_apply, val_main_v13_apply, val_main_cst_1_apply, val_main_cst_2_apply,
    val_main_cst_apply, val_main_cst_0_apply]
  simp only [val_main_v0_apply, val_main_v2_apply, idx_x2, idx_y2, lidx_xy, ridx_xy, Ideal.maximumf_def,
    Ideal.subf_def, Ideal.addf_def, Ideal.mulf_def, Ideal.ofBits_def, Ideal.ofBits_zero_f32, zero_add, pt, two, floor0]

/-- The index over (b, n) with m inserted on the last axis is (b, n, m). -/
private theorem lift_rows (h : S8x4096x4096.Reduces [2] S8x4096) (b : Fin 8) (n m : Fin 4096) :
    h.lift (ix2 b n) m = ix3 b n m := by
  funext a; apply Fin.ext; match a with | ⟨0, _⟩ => rfl | ⟨1, _⟩ => rfl | ⟨2, _⟩ => rfl

/-- The index over (b, m) with n inserted on the middle axis is (b, n, m). -/
private theorem lift_cols (h : S8x4096x4096.Reduces [1] S8x4096) (b : Fin 8) (n m : Fin 4096) :
    h.lift (ix2 b m) n = ix3 b n m := by
  funext a; apply Fin.ext; match a with | ⟨0, _⟩ => rfl | ⟨1, _⟩ => rfl | ⟨2, _⟩ => rfl

theorem ref_rows (x y : (⟨S8x4096x3, .f32⟩ : BufTy).Contents (Elt Ideal)) :
    val_main_v15 (F := Ideal) x y = nearestArr x y := by
  funext j
  obtain ⟨b, n, rfl⟩ : ∃ (b : Fin 8) (n : Fin 4096), j = ix2 b n := ⟨j 0, j 1, eq_ix2 j⟩
  rw [nearestArr_ix2]
  refine eq_of_forall_le_iff fun z => ?_
  rw [le_nearest]
  unfold val_main_v15
  have h : S8x4096x4096.Reduces [2] S8x4096 := by decide
  rw [Host.reduce_eq_fold_single FloatOps.minimumf _ _ reducesTo_S8x4096x4096_S8x4096_d2 h h_S_,
    val_main_cst_3_apply, Ideal.ofBits_def, ofBits_inf]
  refine (le_fold_min_top _ z).trans (forall_congr' fun (m : Fin 4096) => ?_)
  show z ≤ val_main_v14 (F := Ideal) x y (h.lift (ix2 b n) m) ↔ _
  rw [lift_rows h b n m, v14_ix3, gap_comm]

theorem ref_cols (x y : (⟨S8x4096x3, .f32⟩ : BufTy).Contents (Elt Ideal)) :
    val_main_v16 (F := Ideal) x y = nearestArr y x := by
  funext j
  obtain ⟨b, m, rfl⟩ : ∃ (b : Fin 8) (m : Fin 4096), j = ix2 b m := ⟨j 0, j 1, eq_ix2 j⟩
  rw [nearestArr_ix2]
  refine eq_of_forall_le_iff fun z => ?_
  rw [le_nearest]
  unfold val_main_v16
  have h : S8x4096x4096.Reduces [1] S8x4096 := by decide
  rw [Host.reduce_eq_fold_single FloatOps.minimumf _ _ reducesTo_S8x4096x4096_S8x4096_d1 h h_S_,
    val_main_cst_4_apply, Ideal.ofBits_def, ofBits_inf]
  refine (le_fold_min_top _ z).trans (forall_congr' fun (n : Fin 4096) => ?_)
  show z ≤ val_main_v14 (F := Ideal) x y (h.lift (ix2 b m) n) ↔ _
  rw [lift_cols h b n m, v14_ix3]
  rfl

end Cert.RefNearest

end
-- ==== Proof.lean ====
/-
  The kernel program computes a Chamfer loss between two batches of point clouds `x` and `y` (8 batches of 4096 points
  in three dimensions): for every point of `x` its nearest squared distance to the points of `y` of the same batch, for
  every point of `y` its nearest squared distance to the points of `x`, and the sum of the two means. A squared
  distance is taken as `(|q|² + |p|²) − 2·⟨q, p⟩` floored at zero. The kernel evaluates each direction in one launch that
  sweeps 1024 × 1024 tiles and keeps a running minimum per row point across the column tiles; the reference forms the
  whole 4096 × 4096 array of floored differences per batch once and takes its minimum along each axis.
  On the extended reals both are the same numbers: a minimum from +∞ over all column points, in tiles or at once, is
  the infimum of the terms (two extended reals with the same lower bounds are equal); the two programs write each term
  with the squared norms and the factors of the inner product in either order, which addition and multiplication do
  not see; a change of float format is the identity; and both finish with the same host operations on the two arrays
  of nearest distances. No step needs the inputs to be finite.
  Modules: Nearest, NearestSteps, Lanes (the specification and its tile-by-tile form), TileNearest, TileStep (one grid
  point's arithmetic), PointStep (what a grid point leaves in the output block), Sweep0, Sweep1 (the induction over
  the grid and the output array of each launch), KernelRun, KernelLoss (the kernel program's run and its result),
  RefNearest (the reference's two minimum-reductions).
-/
import proofs.«104544_j51754355916968_1_alg».proof.Defs
import proofs.«104544_j51754355916968_1_alg».proof.Proof.Gen.Kernel
import proofs.«104544_j51754355916968_1_alg».proof.Proof.Gen.Kernel.Skeleton
import proofs.«104544_j51754355916968_1_alg».proof.Proof.Gen.Kernel.Launch
import proofs.«104544_j51754355916968_1_alg».proof.Proof.Gen.Kernel.Points
import proofs.«104544_j51754355916968_1_alg».proof.Proof.Gen.Kernel.Frame
import proofs.«104544_j51754355916968_1_alg».proof.Proof.Gen.KernelIdeal
import proofs.«104544_j51754355916968_1_alg».proof.Proof.Gen.KernelIdeal.Skeleton
import proofs.«104544_j51754355916968_1_alg».proof.Proof.Gen.KernelIdeal.Launch
import proofs.«104544_j51754355916968_1_alg».proof.Proof.Gen.KernelIdeal.Points
import proofs.«104544_j51754355916968_1_alg».proof.Proof.Gen.KernelIdeal.Frame
import proofs.«104544_j51754355916968_1_alg».proof.Proof.Gen.ReferenceIdeal
import proofs.«104544_j51754355916968_1_alg».proof.Proof.Gen.ReferenceIdeal.Run
import proofs.«104544_j51754355916968_1_alg».proof.Proof.Gen.ReferenceIdeal.Read
import proofs.«104544_j51754355916968_1_alg».proof.Proof.Gen.Pre_finite_inputs
import proofs.«104544_j51754355916968_1_alg».proof.Proof.KernelRun
import proofs.«104544_j51754355916968_1_alg».proof.Proof.KernelLoss
import proofs.«104544_j51754355916968_1_alg».proof.Proof.Sweep0
import proofs.«104544_j51754355916968_1_alg».proof.Proof.Sweep1
import proofs.«104544_j51754355916968_1_alg».proof.Proof.RefNearest
import Idealize.ShloMosaic.Adequacy
import Idealize.ShloMosaic.Init

noncomputable section

namespace Cert.Proof

open Idealize.ShloMosaic Idealize.ShloMosaic.TcCoe Idealize.SL.Sem

/-- The scalar the idealized kernel program ends with: the sum of the two means of the nearest distances, from the
    first cloud to the second and from the second to the first, of the clouds as launched. Each launch's output array is
    the nearest distances of the clouds it finds (`Sweep0.final`, `Sweep1.final`); the second launch finds the clouds
    as launched; the reshape drops the unit axis. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W4 m ρ c (Proc.devRef .tc Cert.KernelIdeal.main_v8)
      = Cert.KernelIdeal.Loss.meanSum (F := Ideal)
          (Cert.Nearest.nearestArr (m ((c.tc : Thread Cert.KernelIdeal.nD Cert.KernelIdeal.τ).loc Cert.KernelIdeal.main_arg0))
            (m ((c.tc : Thread Cert.KernelIdeal.nD Cert.KernelIdeal.τ).loc Cert.KernelIdeal.main_arg1)))
          (Cert.Nearest.nearestArr (m ((c.tc : Thread Cert.KernelIdeal.nD Cert.KernelIdeal.τ).loc Cert.KernelIdeal.main_arg1))
            (m ((c.tc : Thread Cert.KernelIdeal.nD Cert.KernelIdeal.τ).loc Cert.KernelIdeal.main_arg0))) := by
  rw [Cert.KernelIdeal.Loss.result_eq, Cert.KernelIdeal.Sweep0.final (Cert.KernelIdeal.Gen.V0 m ρ) c,
    Cert.KernelIdeal.Sweep1.final (Cert.KernelIdeal.Gen.V2 m ρ) c, Cert.Nearest.shapeCast_lanes, Cert.Nearest.shapeCast_lanes]
  show Cert.KernelIdeal.Loss.meanSum (F := Ideal)
      (Cert.Nearest.nearestArr (Cert.KernelIdeal.Gen.V0 m ρ c Cert.KernelIdeal.main_arg0) (Cert.KernelIdeal.Gen.V0 m ρ c Cert.KernelIdeal.main_arg1))
      (Cert.Nearest.nearestArr (Cert.KernelIdeal.Gen.V2 m ρ c Cert.KernelIdeal.main_arg1) (Cert.KernelIdeal.Gen.V2 m ρ c Cert.KernelIdeal.main_arg0)) = _
  rw [Cert.KernelIdeal.Loss.V2_main_arg0, Cert.KernelIdeal.Loss.V2_main_arg1]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end, from memories agreeing on the two clouds, with the same scalar: the kernel's by `kernel_result`,
    the reference's because its two minimum-reductions are the nearest distances (`ref_rows`, `ref_cols`) and its last
    operations are the kernel's. -/
theorem algebraic : Cert.algebraic_KernelIdeal_ReferenceIdeal := by
  intro m ρ m' ρ' _ hagree
  refine ⟨fun c => Cert.KernelIdeal.Gen.W4 m ρ c (Proc.devRef .tc Cert.KernelIdeal.main_v8),
    Cert.KernelIdeal.Gen.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, (hagree c).1, (hagree c).2]
  refine Eq.trans ?_ (kernel_result m ρ c).symm
  show Cert.KernelIdeal.Loss.meanSum (F := Ideal)
      (Cert.ReferenceIdeal.Read.val_main_v15 (F := Ideal) _ _) (Cert.ReferenceIdeal.Read.val_main_v16 (F := Ideal) _ _) = _
  rw [Cert.RefNearest.ref_rows, Cert.RefNearest.ref_cols]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
